-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S8x65536x2 : Shape := ⟨3, ![8, 65536, 2]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel
  bcast_S_S8x65536x2 : S_.BroadcastsInDim S8x65536x2 (![] : Fin 0 → Fin S8x65536x2.rank)
  reducesTo_S8x65536x2_S_d0_1_2 : S8x65536x2.ReducesTo [0, 1, 2] S_

variable [Facts]

def fn {F : FTy → Type} [FloatOps F] (main_arg0 : FVec F S8x256x256x64 .f32) (main_arg1 : FVec F S8x65536x2 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  let main_v4 : FVec F S8x65536x2 .f32 := Host.absf main_arg1
  let main_cst_0 : FVec F S_ .f32 := constant S_ .f32 0x7F800000#32
  let main_v5 : FVec F S8x65536x2 .f32 := broadcastInDim S8x65536x2 ![] bcast_S_S8x65536x2 main_cst_0
  let main_v6 : IVec S8x65536x2 1 := cmpf .olt main_v4 main_v5
  let main_c_1 : IVec S_ 1 := constantI S_ 1 1#1
  let main_v7 : IVec S_ 1 := (fun x v => Host.reduce IntOp.andi x v reducesTo_S8x65536x2_S_d0_1_2 h_S_) main_v6 main_c_1
  let main_v8 : IVec S_ 1 := andi main_v3 main_v7
  main_v8
-- ==== Kernel.lean ====
abbrev S8x256x256x64 : Shape := ⟨4, ![8, 256, 256, 64]⟩
abbrev S8x65536x2 : Shape := ⟨3, ![8, 65536, 2]⟩
abbrev S8x65536x1 : Shape := ⟨3, ![8, 65536, 1]⟩
abbrev S8x65536 : Shape := ⟨2, ![8, 65536]⟩
abbrev S_ : Shape := ⟨0, ![]⟩
abbrev S8x65536x64 : Shape := ⟨3, ![8, 65536, 64]⟩
abbrev S524288x64 : Shape := ⟨2, ![524288, 64]⟩
abbrev S524288x2 : Shape := ⟨2, ![524288, 2]⟩
abbrev S4096x64 : Shape := ⟨2, ![4096, 64]⟩
abbrev S4096x2 : Shape := ⟨2, ![4096, 2]⟩
abbrev S4096x1 : Shape := ⟨2, ![4096, 1]⟩

abbrev nBuf : Space → Nat
  | .hbm => 138
  | .vmem => 12
  | .smem => 0
  | _ => 0

abbrev hbmTy0_0 (i : Nat) : BufTy := match i % 128 with
  | 0 => ⟨S8x256x256x64, .f32⟩
  | 1 => ⟨S8x65536x2, .f32⟩
  | 2 => ⟨S8x65536x1, .f32⟩
  | 3 => ⟨S8x65536, .f32⟩
  | 4 => ⟨S8x65536x1, .f32⟩
  | 5 => ⟨S8x65536, .f32⟩
  | 6 => ⟨S8x65536, .f32⟩
  | 7 => ⟨S_, .f32⟩
  | 8 => ⟨S_, .i32⟩
  | 9 => ⟨S_, .f32⟩
  | 10 => ⟨S8x65536, .f32⟩
  | 11 => ⟨S8x65536, .f32⟩
  | 12 => ⟨S_, .f32⟩
  | 13 => ⟨S8x65536, .f32⟩
  | 14 => ⟨S8x65536, .f32⟩
  | 15 => ⟨S8x65536, .f32⟩
  | 16 => ⟨S_, .f32⟩
  | 17 => ⟨S_, .i32⟩
  | 18 => ⟨S_, .f32⟩
  | 19 => ⟨S8x65536, .f32⟩
  | 20 => ⟨S8x65536, .f32⟩
  | 21 => ⟨S_, .f32⟩
  | 22 => ⟨S8x65536, .f32⟩
  | 23 => ⟨S8x65536, .f32⟩
  | 24 => ⟨S8x65536, .f32⟩
  | 25 => ⟨S_, .f32⟩
  | 26 => ⟨S_, .f32⟩
  | 27 => ⟨S_, .f32⟩
  | 28 => ⟨S8x65536, .f32⟩
  | 29 => ⟨S8x65536, .f32⟩
  | 30 => ⟨S_, .f32⟩
  | 31 => ⟨S8x65536, .f32⟩
  | 32 => ⟨S8x65536, .f32⟩
  | 33 => ⟨S8x65536, .f32⟩
  | 34 => ⟨S_, .f32⟩
  | 35 => ⟨S_, .f32⟩
  | 36 => ⟨S_, .f32⟩
  | 37 => ⟨S8x65536, .f32⟩
  | 38 => ⟨S8x65536, .f32⟩
  | 39 => ⟨S_, .f32⟩
  | 40 => ⟨S8x65536, .f32⟩
  | 41 => ⟨S8x65536, .f32⟩
  | 42 => ⟨S8x65536, .i32⟩
  | 43 => ⟨S8x65536, .i32⟩
  | 44 => ⟨S_, .i32⟩
  | 45 => ⟨S8x65536, .i32⟩
  | 46 => ⟨S8x65536, .i1⟩
  | 47 => ⟨S_, .i32⟩
  | 48 => ⟨S8x65536, .i32⟩
  | 49 => ⟨S8x65536, .i32⟩
  | 50 => ⟨S8x65536, .i32⟩
  | 51 => ⟨S_, .i32⟩
  | 52 => ⟨S8x65536, .i32⟩
  | 53 => ⟨S8x65536, .i1⟩
  | 54 => ⟨S_, .i32⟩
  | 55 => ⟨S8x65536, .i32⟩
  | 56 => ⟨S8x65536, .i32⟩
  | 57 => ⟨S8x65536, .i32⟩
  | 58 => ⟨S8x65536x1, .i32⟩
  | 59 => ⟨S8x65536x1, .i32⟩
  | 60 => ⟨S8x65536x2, .i32⟩
  | 61 => ⟨S8x65536x64, .f32⟩
  | 62 => ⟨S_, .i32⟩
  | 63 => ⟨S8x65536, .i32⟩
  | 64 => ⟨S8x65536, .i32⟩
  | 65 => ⟨S_, .i32⟩
  | 66 => ⟨S8x65536, .i32⟩
  | 67 => ⟨S8x65536, .i1⟩
  | 68 => ⟨S_, .i32⟩
  | 69 => ⟨S8x65536, .i32⟩
  | 70 => ⟨S8x65536, .i32⟩
  | 71 => ⟨S8x65536, .i32⟩
  | 72 => ⟨S_, .i32⟩
  | 73 => ⟨S8x65536, .i32⟩
  | 74 => ⟨S8x65536, .i1⟩
  | 75 => ⟨S_, .i32⟩
  | 76 => ⟨S8x65536, .i32⟩
  | 77 => ⟨S8x65536, .i32⟩
  | 78 => ⟨S8x65536, .i32⟩
  | 79 => ⟨S8x65536x1, .i32⟩
  | 80 => ⟨S8x65536x1, .i32⟩
  | 81 => ⟨S8x65536x2, .i32⟩
  | 82 => ⟨S8x65536x64, .f32⟩
  | 83 => ⟨S_, .i32⟩
  | 84 => ⟨S8x65536, .i32⟩
  | 85 => ⟨S8x65536, .i32⟩
  | 86 => ⟨S_, .i32⟩
  | 87 => ⟨S8x65536, .i32⟩
  | 88 => ⟨S8x65536, .i1⟩
  | 89 => ⟨S_, .i32⟩
  | 90 => ⟨S8x65536, .i32⟩
  | 91 => ⟨S8x65536, .i32⟩
  | 92 => ⟨S8x65536, .i32⟩
  | 93 => ⟨S_, .i32⟩
  | 94 => ⟨S8x65536, .i32⟩
  | 95 => ⟨S8x65536, .i1⟩
  | 96 => ⟨S_, .i32⟩
  | 97 => ⟨S8x65536, .i32⟩
  | 98 => ⟨S8x65536, .i32⟩
  | 99 => ⟨S8x65536, .i32⟩
  | 100 => ⟨S8x65536x1, .i32⟩
  | 101 => ⟨S8x65536x1, .i32⟩
  | 102 => ⟨S8x65536x2, .i32⟩
  | 103 => ⟨S8x65536x64, .f32⟩
  | 104 => ⟨S_, .i32⟩
  | 105 => ⟨S8x65536, .i32⟩
  | 106 => ⟨S8x65536, .i32⟩
  | 107 => ⟨S_, .i32⟩
  | 108 => ⟨S8x65536, .i32⟩
  | 109 => ⟨S8x65536, .i32⟩
  | 110 => ⟨S_, .i32⟩
  | 111 => ⟨S8x65536, .i32⟩
  | 112 => ⟨S8x65536, .i1⟩
  | 113 => ⟨S_, .i32⟩
  | 114 => ⟨S8x65536, .i32⟩
  | 115 => ⟨S8x65536, .i32⟩
  | 116 => ⟨S8x65536, .i32⟩
  | 117 => ⟨S_, .i32⟩
  | 118 => ⟨S8x65536, .i32⟩
  | 119 => ⟨S8x65536, .i1⟩
  | 120 => ⟨S_, .i32⟩
  | 121 => ⟨S8x65536, .i32⟩
  | 122 => ⟨S8x65536, .i32⟩
  | 123 => ⟨S8x65536, .i32⟩
  | 124 => ⟨S8x65536x1, .i32⟩
  | 125 => ⟨S8x65536x1, .i32⟩
  | 126 => ⟨S8x65536x2, .i32⟩
  | 127 => ⟨S8x65536x64, .f32⟩
  | _ => ⟨S8x256x256x64, .f32⟩

abbrev hbmTy0_1 (i : Nat) : BufTy := match i % 128 with
  | 0 => ⟨S8x65536x1, .f32⟩
  | 1 => ⟨S8x65536x1, .f32⟩
  | 2 => ⟨S8x65536x2, .f32⟩
  | 3 => ⟨S524288x64, .f32⟩
  | 4 => ⟨S524288x64, .f32⟩
  | 5 => ⟨S524288x64, .f32⟩
  | 6 => ⟨S524288x64, .f32⟩
  | 7 => ⟨S524288x2, .f32⟩
  | 8 => ⟨S524288x64, .f32⟩
  | 9 => ⟨S8x65536x64, .f32⟩
  | _ => ⟨S8x256x256x64, .f32⟩

abbrev hbmTy (i : Nat) : BufTy := match i / 128 with
  | 0 => hbmTy0_0 i
  | 1 => hbmTy0_1 i
  | _ => ⟨S8x256x256x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x2, .f32⟩
  | .local _ .vmem, ⟨9, _⟩ => ⟨S4096x2, .f32⟩
  | .local _ .vmem, ⟨10, _⟩ => ⟨S4096x64, .f32⟩
  | .local _ .vmem, ⟨11, _⟩ => ⟨S4096x64, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_cst_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v9 : Ref sig .tc := ⟨.hbm, 32, rfl⟩
abbrev main_v10 : Ref sig .tc := ⟨.hbm, 33, rfl⟩
abbrev main_cst_4 : Ref sig .tc := ⟨.hbm, 34, rfl⟩
abbrev main_cst_5 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_6 : Ref sig .tc := ⟨.hbm, 44, rfl⟩
abbrev main_v14 : Ref sig .tc := ⟨.hbm, 45, rfl⟩
abbrev main_v15 : Ref sig .tc := ⟨.hbm, 46, rfl⟩
abbrev main_c_7 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_8 : Ref sig .tc := ⟨.hbm, 51, rfl⟩
abbrev main_v19 : Ref sig .tc := ⟨.hbm, 52, rfl⟩
abbrev main_v20 : Ref sig .tc := ⟨.hbm, 53, rfl⟩
abbrev main_c_9 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_10 : Ref sig .tc := ⟨.hbm, 62, rfl⟩
abbrev main_v28 : Ref sig .tc := ⟨.hbm, 63, rfl⟩
abbrev main_v29 : Ref sig .tc := ⟨.hbm, 64, rfl⟩
abbrev main_c_11 : Ref sig .tc := ⟨.hbm, 65, rfl⟩
abbrev main_v30 : Ref sig .tc := ⟨.hbm, 66, rfl⟩
abbrev main_v31 : Ref sig .tc := ⟨.hbm, 67, rfl⟩
abbrev main_c_12 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_13 : Ref sig .tc := ⟨.hbm, 72, rfl⟩
abbrev main_v35 : Ref sig .tc := ⟨.hbm, 73, rfl⟩
abbrev main_v36 : Ref sig .tc := ⟨.hbm, 74, rfl⟩
abbrev main_c_14 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_15 : Ref sig .tc := ⟨.hbm, 83, rfl⟩
abbrev main_v44 : Ref sig .tc := ⟨.hbm, 84, rfl⟩
abbrev main_v45 : Ref sig .tc := ⟨.hbm, 85, rfl⟩
abbrev main_c_16 : Ref sig .tc := ⟨.hbm, 86, rfl⟩
abbrev main_v46 : Ref sig .tc := ⟨.hbm, 87, rfl⟩
abbrev main_v47 : Ref sig .tc := ⟨.hbm, 88, rfl⟩
abbrev main_c_17 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_18 : Ref sig .tc := ⟨.hbm, 93, rfl⟩
abbrev main_v51 : Ref sig .tc := ⟨.hbm, 94, rfl⟩
abbrev main_v52 : Ref sig .tc := ⟨.hbm, 95, rfl⟩
abbrev main_c_19 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c_20 : Ref sig .tc := ⟨.hbm, 104, rfl⟩
abbrev main_v60 : Ref sig .tc := ⟨.hbm, 105, rfl⟩
abbrev main_v61 : Ref sig .tc := ⟨.hbm, 106, rfl⟩
abbrev main_c_21 : Ref sig .tc := ⟨.hbm, 107, rfl⟩
abbrev main_v62 : Ref sig .tc := ⟨.hbm, 108, rfl⟩
abbrev main_v63 : Ref sig .tc := ⟨.hbm, 109, rfl⟩
abbrev main_c_22 : Ref sig .tc := ⟨.hbm, 110, rfl⟩
abbrev main_v64 : Ref sig .tc := ⟨.hbm, 111, rfl⟩
abbrev main_v65 : Ref sig .tc := ⟨.hbm, 112, rfl⟩
abbrev main_c_23 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_24 : Ref sig .tc := ⟨.hbm, 117, rfl⟩
abbrev main_v69 : Ref sig .tc := ⟨.hbm, 118, rfl⟩
abbrev main_v70 : Ref sig .tc := ⟨.hbm, 119, rfl⟩
abbrev main_c_25 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x65536x2_S8x65536x1_0_0_0 : S8x65536x2.Slices ![0, 0, 0] S8x65536x1
  shapeCasts_S8x65536x1_S8x65536 : S8x65536x1.ShapeCasts S8x65536
  slices_S8x65536x2_S8x65536x1_0_0_1 : S8x65536x2.Slices ![0, 0, 1] S8x65536x1
  bcast_S_S8x65536 : S_.BroadcastsInDim S8x65536 (![] : Fin 0 → Fin S8x65536.rank)
  bcast_S8x65536_S8x65536x1_0_1 : S8x65536.BroadcastsInDim S8x65536x1 (![0, 1] : Fin 2 → Fin S8x65536x1.rank)
  concatenates_S8x65536x1_S8x65536x1_S8x65536x2_d2 : Shape.Concatenates [S8x65536x1, S8x65536x1] S8x65536x2 2
  shapeCasts_S8x65536x64_S524288x64 : S8x65536x64.ShapeCasts S524288x64
  shapeCasts_S8x65536x2_S524288x2 : S8x65536x2.ShapeCasts S524288x2
  inb_S4096x2_S4096x1_0_0 : ∀ a, (![0, 0] : Fin 2 → Nat) a + S4096x1.size a ≤ S4096x2.size a
  h_S4096x1 : 0 < S4096x1.numel
  shapeCasts_S4096x1_S4096x1 : S4096x1.ShapeCasts S4096x1
  inb_S4096x2_S4096x1_0_1 : ∀ a, (![0, 1] : Fin 2 → Nat) a + S4096x1.size a ≤ S4096x2.size a
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  shapeCasts_S524288x64_S8x65536x64 : S524288x64.ShapeCasts S8x65536x64
  gather_S8x256x256x64_S8x65536x2_S8x65536x64_2_12_0_0_12_2_11164_wf : GatherDims.WF S8x256x256x64 S8x65536x2 S8x65536x64 [2] [1, 2] [0] [1, 2] [0] 2 ![1, 1, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S524288x64.size a
  hwx0_2 : ∀ i : grid0.Coords, EltTy.bits .f32 = 32 ∨ (Rect.block (s := S524288x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S524288x64.size a
  hwx0_3 : ∀ i : grid0.Coords, EltTy.bits .f32 = 32 ∨ (Rect.block (s := S524288x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x2.size a ≤ S524288x2.size a
  hwx0_4 : ∀ i : grid0.Coords, EltTy.bits .f32 = 32 ∨ (Rect.block (s := S524288x2) S4096x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S524288x64.size a
  hwx0_5 : ∀ i : grid0.Coords, EltTy.bits .f32 = 32 ∨ (Rect.block (s := S524288x64) S4096x64.size (cc0_transform_5 i) (hinb0_5 i)).WholeWords (EltTy.packing .f32)

variable [Facts₀]

def gather_S8x256x256x64_S8x65536x2_S8x65536x64_2_12_0_0_12_2_11164 : GatherDims S8x256x256x64 S8x65536x2 S8x65536x64 where
  offsetDims := [2]
  collapsedSliceDims := [1, 2]
  operandBatchingDims := [0]
  startIndicesBatchingDims := [0]
  startIndexMap := [1, 2]
  indexVectorDim := 2
  sliceSizes := ![1, 1, 1, 64]
  wf := gather_S8x256x256x64_S8x65536x2_S8x65536x64_2_12_0_0_12_2_11164_wf

abbrev win0_0 : Pipeline.Window sig grid0 :=
  Pipeline.Window.ofSpec (Memref.whole main_v81) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v83) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v84) S4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v85) S4096x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v86) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S8x65536x2 : Shape := ⟨3, ![8, 65536, 2]⟩
abbrev S8x65536x1 : Shape := ⟨3, ![8, 65536, 1]⟩
abbrev S8x65536 : Shape := ⟨2, ![8, 65536]⟩
abbrev S_ : Shape := ⟨0, ![]⟩
abbrev S8x65536x64 : Shape := ⟨3, ![8, 65536, 64]⟩

abbrev nBuf : Space → Nat
  | .hbm => 142
  | .vmem => 0
  | .smem => 0
  | _ => 0

abbrev hbmTy0_0 (i : Nat) : BufTy := match i % 128 with
  | 0 => ⟨S8x256x256x64, .f32⟩
  | 1 => ⟨S8x65536x2, .f32⟩
  | 2 => ⟨S8x65536x1, .f32⟩
  | 3 => ⟨S8x65536, .f32⟩
  | 4 => ⟨S8x65536x1, .f32⟩
  | 5 => ⟨S8x65536, .f32⟩
  | 6 => ⟨S8x65536, .f32⟩
  | 7 => ⟨S_, .f32⟩
  | 8 => ⟨S_, .i32⟩
  | 9 => ⟨S_, .f32⟩
  | 10 => ⟨S8x65536, .f32⟩
  | 11 => ⟨S8x65536, .f32⟩
  | 12 => ⟨S_, .f32⟩
  | 13 => ⟨S8x65536, .f32⟩
  | 14 => ⟨S8x65536, .f32⟩
  | 15 => ⟨S8x65536, .f32⟩
  | 16 => ⟨S_, .f32⟩
  | 17 => ⟨S_, .i32⟩
  | 18 => ⟨S_, .f32⟩
  | 19 => ⟨S8x65536, .f32⟩
  | 20 => ⟨S8x65536, .f32⟩
  | 21 => ⟨S_, .f32⟩
  | 22 => ⟨S8x65536, .f32⟩
  | 23 => ⟨S8x65536, .f32⟩
  | 24 => ⟨S8x65536, .f32⟩
  | 25 => ⟨S_, .f32⟩
  | 26 => ⟨S_, .f32⟩
  | 27 => ⟨S_, .f32⟩
  | 28 => ⟨S8x65536, .f32⟩
  | 29 => ⟨S8x65536, .f32⟩
  | 30 => ⟨S_, .f32⟩
  | 31 => ⟨S8x65536, .f32⟩
  | 32 => ⟨S8x65536, .f32⟩
  | 33 => ⟨S8x65536x1, .f32⟩
  | 34 => ⟨S8x65536, .f32⟩
  | 35 => ⟨S_, .f32⟩
  | 36 => ⟨S_, .f32⟩
  | 37 => ⟨S_, .f32⟩
  | 38 => ⟨S8x65536, .f32⟩
  | 39 => ⟨S8x65536, .f32⟩
  | 40 => ⟨S_, .f32⟩
  | 41 => ⟨S8x65536, .f32⟩
  | 42 => ⟨S8x65536, .f32⟩
  | 43 => ⟨S8x65536x1, .f32⟩
  | 44 => ⟨S8x65536, .i32⟩
  | 45 => ⟨S8x65536, .i32⟩
  | 46 => ⟨S_, .i32⟩
  | 47 => ⟨S8x65536, .i32⟩
  | 48 => ⟨S8x65536, .i1⟩
  | 49 => ⟨S_, .i32⟩
  | 50 => ⟨S8x65536, .i32⟩
  | 51 => ⟨S8x65536, .i32⟩
  | 52 => ⟨S8x65536, .i32⟩
  | 53 => ⟨S_, .i32⟩
  | 54 => ⟨S8x65536, .i32⟩
  | 55 => ⟨S8x65536, .i1⟩
  | 56 => ⟨S_, .i32⟩
  | 57 => ⟨S8x65536, .i32⟩
  | 58 => ⟨S8x65536, .i32⟩
  | 59 => ⟨S8x65536, .i32⟩
  | 60 => ⟨S8x65536x1, .i32⟩
  | 61 => ⟨S8x65536x1, .i32⟩
  | 62 => ⟨S8x65536x2, .i32⟩
  | 63 => ⟨S8x65536x64, .f32⟩
  | 64 => ⟨S_, .i32⟩
  | 65 => ⟨S8x65536, .i32⟩
  | 66 => ⟨S8x65536, .i32⟩
  | 67 => ⟨S_, .i32⟩
  | 68 => ⟨S8x65536, .i32⟩
  | 69 => ⟨S8x65536, .i1⟩
  | 70 => ⟨S_, .i32⟩
  | 71 => ⟨S8x65536, .i32⟩
  | 72 => ⟨S8x65536, .i32⟩
  | 73 => ⟨S8x65536, .i32⟩
  | 74 => ⟨S_, .i32⟩
  | 75 => ⟨S8x65536, .i32⟩
  | 76 => ⟨S8x65536, .i1⟩
  | 77 => ⟨S_, .i32⟩
  | 78 => ⟨S8x65536, .i32⟩
  | 79 => ⟨S8x65536, .i32⟩
  | 80 => ⟨S8x65536, .i32⟩
  | 81 => ⟨S8x65536x1, .i32⟩
  | 82 => ⟨S8x65536x1, .i32⟩
  | 83 => ⟨S8x65536x2, .i32⟩
  | 84 => ⟨S8x65536x64, .f32⟩
  | 85 => ⟨S_, .i32⟩
  | 86 => ⟨S8x65536, .i32⟩
  | 87 => ⟨S8x65536, .i32⟩
  | 88 => ⟨S_, .i32⟩
  | 89 => ⟨S8x65536, .i32⟩
  | 90 => ⟨S8x65536, .i1⟩
  | 91 => ⟨S_, .i32⟩
  | 92 => ⟨S8x65536, .i32⟩
  | 93 => ⟨S8x65536, .i32⟩
  | 94 => ⟨S8x65536, .i32⟩
  | 95 => ⟨S_, .i32⟩
  | 96 => ⟨S8x65536, .i32⟩
  | 97 => ⟨S8x65536, .i1⟩
  | 98 => ⟨S_, .i32⟩
  | 99 => ⟨S8x65536, .i32⟩
  | 100 => ⟨S8x65536, .i32⟩
  | 101 => ⟨S8x65536, .i32⟩
  | 102 => ⟨S8x65536x1, .i32⟩
  | 103 => ⟨S8x65536x1, .i32⟩
  | 104 => ⟨S8x65536x2, .i32⟩
  | 105 => ⟨S8x65536x64, .f32⟩
  | 106 => ⟨S_, .i32⟩
  | 107 => ⟨S8x65536, .i32⟩
  | 108 => ⟨S8x65536, .i32⟩
  | 109 => ⟨S_, .i32⟩
  | 110 => ⟨S8x65536, .i32⟩
  | 111 => ⟨S8x65536, .i32⟩
  | 112 => ⟨S_, .i32⟩
  | 113 => ⟨S8x65536, .i32⟩
  | 114 => ⟨S8x65536, .i1⟩
  | 115 => ⟨S_, .i32⟩
  | 116 => ⟨S8x65536, .i32⟩
  | 117 => ⟨S8x65536, .i32⟩
  | 118 => ⟨S8x65536, .i32⟩
  | 119 => ⟨S_, .i32⟩
  | 120 => ⟨S8x65536, .i32⟩
  | 121 => ⟨S8x65536, .i1⟩
  | 122 => ⟨S_, .i32⟩
  | 123 => ⟨S8x65536, .i32⟩
  | 124 => ⟨S8x65536, .i32⟩
  | 125 => ⟨S8x65536, .i32⟩
  | 126 => ⟨S8x65536x1, .i32⟩
  | 127 => ⟨S8x65536x1, .i32⟩
  | _ => ⟨S8x256x256x64, .f32⟩

abbrev hbmTy0_1 (i : Nat) : BufTy := match i % 128 with
  | 0 => ⟨S8x65536x2, .i32⟩
  | 1 => ⟨S8x65536x64, .f32⟩
  | 2 => ⟨S8x65536x64, .f32⟩
  | 3 => ⟨S8x65536x64, .f32⟩
  | 4 => ⟨S8x65536x64, .f32⟩
  | 5 => ⟨S8x65536x64, .f32⟩
  | 6 => ⟨S8x65536x64, .f32⟩
  | 7 => ⟨S8x65536x64, .f32⟩
  | 8 => ⟨S8x65536x64, .f32⟩
  | 9 => ⟨S8x65536x64, .f32⟩
  | 10 => ⟨S8x65536x64, .f32⟩
  | 11 => ⟨S8x65536x64, .f32⟩
  | 12 => ⟨S8x65536x64, .f32⟩
  | 13 => ⟨S8x65536x64, .f32⟩
  | _ => ⟨S8x256x256x64, .f32⟩

abbrev hbmTy (i : Nat) : BufTy := match i / 128 with
  | 0 => hbmTy0_0 i
  | 1 => hbmTy0_1 i
  | _ => ⟨S8x256x256x64, .f32⟩

abbrev bufTy : (tb : Table) → Fin (tcTables nBuf tb) → BufTy
  | .hbm, ⟨i, _⟩ => hbmTy i
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_cst_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_4 : Ref sig .tc := ⟨.hbm, 35, rfl⟩
abbrev main_cst_5 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_6 : Ref sig .tc := ⟨.hbm, 46, rfl⟩
abbrev main_v16 : Ref sig .tc := ⟨.hbm, 47, rfl⟩
abbrev main_v17 : Ref sig .tc := ⟨.hbm, 48, rfl⟩
abbrev main_c_7 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_8 : Ref sig .tc := ⟨.hbm, 53, rfl⟩
abbrev main_v21 : Ref sig .tc := ⟨.hbm, 54, rfl⟩
abbrev main_v22 : Ref sig .tc := ⟨.hbm, 55, rfl⟩
abbrev main_c_9 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_10 : Ref sig .tc := ⟨.hbm, 64, rfl⟩
abbrev main_v30 : Ref sig .tc := ⟨.hbm, 65, rfl⟩
abbrev main_v31 : Ref sig .tc := ⟨.hbm, 66, rfl⟩
abbrev main_c_11 : Ref sig .tc := ⟨.hbm, 67, rfl⟩
abbrev main_v32 : Ref sig .tc := ⟨.hbm, 68, rfl⟩
abbrev main_v33 : Ref sig .tc := ⟨.hbm, 69, rfl⟩
abbrev main_c_12 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_13 : Ref sig .tc := ⟨.hbm, 74, rfl⟩
abbrev main_v37 : Ref sig .tc := ⟨.hbm, 75, rfl⟩
abbrev main_v38 : Ref sig .tc := ⟨.hbm, 76, rfl⟩
abbrev main_c_14 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_c_16 : Ref sig .tc := ⟨.hbm, 88, rfl⟩
abbrev main_v48 : Ref sig .tc := ⟨.hbm, 89, rfl⟩
abbrev main_v49 : Ref sig .tc := ⟨.hbm, 90, rfl⟩
abbrev main_c_17 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_c_18 : Ref sig .tc := ⟨.hbm, 95, rfl⟩
abbrev main_v53 : Ref sig .tc := ⟨.hbm, 96, rfl⟩
abbrev main_v54 : Ref sig .tc := ⟨.hbm, 97, rfl⟩
abbrev main_c_19 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_20 : Ref sig .tc := ⟨.hbm, 106, rfl⟩
abbrev main_v62 : Ref sig .tc := ⟨.hbm, 107, rfl⟩
abbrev main_v63 : Ref sig .tc := ⟨.hbm, 108, rfl⟩
abbrev main_c_21 : Ref sig .tc := ⟨.hbm, 109, rfl⟩
abbrev main_v64 : Ref sig .tc := ⟨.hbm, 110, rfl⟩
abbrev main_v65 : Ref sig .tc := ⟨.hbm, 111, rfl⟩
abbrev main_c_22 : Ref sig .tc := ⟨.hbm, 112, rfl⟩
abbrev main_v66 : Ref sig .tc := ⟨.hbm, 113, rfl⟩
abbrev main_v67 : Ref sig .tc := ⟨.hbm, 114, rfl⟩
abbrev main_c_23 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_24 : Ref sig .tc := ⟨.hbm, 119, rfl⟩
abbrev main_v71 : Ref sig .tc := ⟨.hbm, 120, rfl⟩
abbrev main_v72 : Ref sig .tc := ⟨.hbm, 121, rfl⟩
abbrev main_c_25 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩

abbrev nD : Nat := 1
abbrev τ : Topo := Topo.v7x

variable {F : FTy → Type} [FloatOps F]

class Facts₀ : Prop where
  slices_S8x65536x2_S8x65536x1_0_0_0 : S8x65536x2.Slices ![0, 0, 0] S8x65536x1
  shapeCasts_S8x65536x1_S8x65536 : S8x65536x1.ShapeCasts S8x65536
  slices_S8x65536x2_S8x65536x1_0_0_1 : S8x65536x2.Slices ![0, 0, 1] S8x65536x1
  bcast_S_S8x65536 : S_.BroadcastsInDim S8x65536 (![] : Fin 0 → Fin S8x65536.rank)
  bcast_S8x65536_S8x65536x1_0_1 : S8x65536.BroadcastsInDim S8x65536x1 (![0, 1] : Fin 2 → Fin S8x65536x1.rank)
  concatenates_S8x65536x1_S8x65536x1_S8x65536x2_d2 : Shape.Concatenates [S8x65536x1, S8x65536x1] S8x65536x2 2
  bcast_S8x65536x1_S8x65536x64_0_1_2 : S8x65536x1.BroadcastsInDim S8x65536x64 (![0, 1, 2] : Fin 3 → Fin S8x65536x64.rank)
  gather_S8x256x256x64_S8x65536x2_S8x65536x64_2_12_0_0_12_2_11164_wf : GatherDims.WF S8x256x256x64 S8x65536x2 S8x65536x64 [2] [1, 2] [0] [1, 2] [0] 2 ![1, 1, 1, 64]

variable [Facts₀]

def gather_S8x256x256x64_S8x65536x2_S8x65536x64_2_12_0_0_12_2_11164 : GatherDims S8x256x256x64 S8x65536x2 S8x65536x64 where
  offsetDims := [2]
  collapsedSliceDims := [1, 2]
  operandBatchingDims := [0]
  startIndicesBatchingDims := [0]
  startIndexMap := [1, 2]
  indexVectorDim := 2
  sliceSizes := ![1, 1, 1, 64]
  wf := gather_S8x256x256x64_S8x65536x2_S8x65536x64_2_12_0_0_12_2_11164_wf

class Facts : Prop extends Facts₀ where

variable [Facts]
-- ==== Proof.Blend.lean ====
/-
  Bilinear interpolation of four corner samples, on one value.

  With horizontal weight `ax` and vertical weight `ay` the blend is
      top    = tl + (tr - tl) * ax
      bottom = bl + (br - bl) * ax
      out    = top + (bottom - top) * ay.
  Both programs of this certificate compute exactly this tree of operations at every output element; only the
  arrangement of the operands in memory differs.  The tree is stated once here, over any float instance, so that the
  two sides meet in one term and no law of arithmetic is ever needed.
-/
import Idealize.ShloMosaic.PureOps

noncomputable section

namespace Cert.Blend

open Idealize.ShloMosaic

variable {F : FTy → Type} [FloatOps F]

/-- One edge of the cell: the value a fraction `a` of the way from `lo` to `hi`. -/
def lerp (lo hi a : F .f32) : F .f32 := FloatOps.addf lo (FloatOps.mulf (FloatOps.subf hi lo) a)

/-- The bilinear blend: interpolate along the top and the bottom edge by `ax`, then between the two by `ay`. -/
def blend (tl tr bl br ax ay : F .f32) : F .f32 := lerp (lerp tl tr ax) (lerp bl br ax) ay

theorem blend_def (tl tr bl br ax ay : F .f32) :
    blend tl tr bl br ax ay
      = FloatOps.addf (FloatOps.addf tl (FloatOps.mulf (FloatOps.subf tr tl) ax))
          (FloatOps.mulf (FloatOps.subf (FloatOps.addf bl (FloatOps.mulf (FloatOps.subf br bl) ax))
            (FloatOps.addf tl (FloatOps.mulf (FloatOps.subf tr tl) ax))) ay) := rfl

end Cert.Blend

end
-- ==== Proof.KernelBody.lean ====
/-
  What the kernel body stores at one element of its output block.

  The body loads the two weight columns of the [4096, 2] weight block (column 0: the horizontal weight, column 1: the
  vertical weight), the four [4096, 64] corner blocks, broadcasts each weight column along the 64 channels, and stores
  the bilinear blend.  Read at row `r` and channel `ch` the stored value is the blend of the four corner blocks at
  `(r, ch)` with the two weights of row `r`.
-/
import proofs.«163394_j20942260535437_1_alg».proof.Proof.Gen.KernelIdeal.Skeleton
import proofs.«163394_j20942260535437_1_alg».proof.Proof.Blend
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F]

/-- The one entry of a [4096, 1] column that sits in the row of `j`. -/
abbrev rowOf (j : S4096x64.Idx) : S4096x1.Idx := ix2 (j 0) (0 : Fin 1)

/-- A [4096, 1] column broadcast along the channels, read at `j`, is the column's entry in `j`'s row. -/
theorem bcast_col_apply (v : Vec F S4096x1 .f32) (j : S4096x64.Idx) :
    broadcastTo S4096x64 v broadcasts_S4096x1_S4096x64 j = v (rowOf j) :=
  broadcastTo_apply v broadcasts_S4096x1_S4096x64 j (rowOf j) (fun a => match a with
    | ⟨0, _⟩ => by show (j 0).val = if (4096 : Nat) = 1 then 0 else (j 0).val; rw [if_neg (by decide)]
    | ⟨1, _⟩ => by show 0 = if (1 : Nat) = 1 then 0 else (j 1).val; rw [if_pos rfl])

/-- The stored value at `j`: the blend of the corner blocks at `j` with the two weights of `j`'s row. -/
theorem pay_apply (v0 v2 : Vec F S4096x1 .f32) (v4 v6 v8 v10 : Vec F S4096x64 .f32) (j : S4096x64.Idx) :
    k0_pay1 v0 v2 v4 v6 v8 v10 j
      = Cert.Blend.blend (v4 j) (v6 j) (v8 j) (v10 j) (v0 (rowOf j)) (v2 (rowOf j)) := by
  unfold k0_pay1
  simp only [shapeCast_self]
  show FloatOps.addf (FloatOps.addf (v4 j) (FloatOps.mulf (FloatOps.subf (v6 j) (v4 j)) (broadcastTo S4096x64 v0 broadcasts_S4096x1_S4096x64 j)))
      (FloatOps.mulf (FloatOps.subf (FloatOps.addf (v8 j) (FloatOps.mulf (FloatOps.subf (v10 j) (v8 j)) (broadcastTo S4096x64 v0 broadcasts_S4096x1_S4096x64 j)))
        (FloatOps.addf (v4 j) (FloatOps.mulf (FloatOps.subf (v6 j) (v4 j)) (broadcastTo S4096x64 v0 broadcasts_S4096x1_S4096x64 j))))
        (broadcastTo S4096x64 v2 broadcasts_S4096x1_S4096x64 j)) = _
  rw [bcast_col_apply v0 j, bcast_col_apply v2 j]
  rfl

end Cert.KernelIdeal.Body

end
-- ==== Proof.KernelArray.lean ====
/-
  The kernel's output array after the grid has run, as one function of the five arrays the region reads.

  The region walks the flat row axis (524288 = 8 * 65536 rows) in 128 blocks of 4096 rows.  At grid point `t` every
  window — the four corner arrays [524288, 64], the weight array [524288, 2] and the output [524288, 64] — is at block
  `t` of its row axis and block 0 of its other axis.  So row `r` of the block is row `t * 4096 + r` of each array, the
  body's blend (KernelBody) is the blend of the ARRAYS' entries at that row, and since the 128 blocks tile the row axis
  the whole output array ends as that blend, row by row.
-/
import proofs.«163394_j20942260535437_1_alg».proof.Proof.Gen.KernelIdeal.Frame
import proofs.«163394_j20942260535437_1_alg».proof.Proof.KernelBody
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- Entry `k` of the weight pair that belongs to the row of `i` in the flat weight array. -/
abbrev wAt (i : S524288x64.Idx) (k : Fin 2) : S524288x2.Idx := ix2 (i 0) k

/-- The flat output as a function of the four flat corner arrays and the flat weight array: at row `r`, channel `ch`
    the blend of the corners at `(r, ch)` with the weights `(r, 0)` and `(r, 1)`. -/
abbrev flatBlend (a0 a1 a2 a3 : S524288x64.Idx → Elt F .f32) (a4 : S524288x2.Idx → Elt F .f32) :
    S524288x64.Idx → Elt F .f32 :=
  fun i => Cert.Blend.blend (a0 i) (a1 i) (a2 i) (a3 i) (a4 (wAt i 0)) (a4 (wAt i 1))

/-- The printed index maps, decided over the 128 grid points: every window is at block `t` of the row axis and at
    block 0 of the other axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `flatBlend` of the arrays as the region finds them. -/
theorem flushed5_eq (c : Dev nD) (t : Fin cfg0.N) :
    (dats m 0 c).flushed 5 t = ((cfg0.win 5).blk t).view.read (Elt F)
      (flatBlend (V m c main_v81) (V m c main_v82) (V m c main_v83) (V m c main_v84) (V m c main_v85)) := by
  show (cfg0.win 5).cut (grid0.coords t) ((dats m 0 c).after 5 t) = _
  rw [after0_5]
  unfold out0_5
  rw [View.canon_unit_zero hz]
  simp only [View.ld_unit_zero (S := S4096x64) hz]
  obtain ⟨e00, e01, e10, e11, e20, e21, e30, e31, e40, e41, e50, e51⟩ := idx_facts t
  funext j
  show k0_pay1 (View.ld (iblk m c 4 t) r0_0) (View.ld (iblk m c 4 t) r0_1) (iblk m c 0 t) (iblk m c 1 t) (iblk m c 2 t) (iblk m c 3 t) j
    = flatBlend (V m c main_v81) (V m c main_v82) (V m c main_v83) (V m c main_v84) (V m c main_v85) (((cfg0.win 5).blk t).view.emb j)
  refine (pay_apply (View.ld (iblk m c 4 t) r0_0) (View.ld (iblk m c 4 t) r0_1) (iblk m c 0 t) (iblk m c 1 t) (iblk m c 2 t) (iblk m c 3 t) j).trans ?_
  have hj0 : (j 0).val < 4096 := (j 0).isLt
  have hj1 : (j 1).val < 64 := (j 1).isLt
  -- each corner window's block sits where the output's block sits
  have h0 : ((cfg0.win 0).blk t).view.emb j = ((cfg0.win 5).blk t).view.emb j := by
    funext a; apply Fin.ext
    match a with
    | ⟨0, _⟩ => show win0_0.index t (0 : Fin 2) * 4096 + 1 * (j 0).val = win0_5.index t (0 : Fin 2) * 4096 + 1 * (j 0).val; omega
    | ⟨1, _⟩ => show win0_0.index t (1 : Fin 2) * 64 + 1 * (j 1).val = win0_5.index t (1 : Fin 2) * 64 + 1 * (j 1).val; omega
  have h1 : ((cfg0.win 1).blk t).view.emb j = ((cfg0.win 5).blk t).view.emb j := by
    funext a; apply Fin.ext
    match a with
    | ⟨0, _⟩ => show win0_1.index t (0 : Fin 2) * 4096 + 1 * (j 0).val = win0_5.index t (0 : Fin 2) * 4096 + 1 * (j 0).val; omega
    | ⟨1, _⟩ => show win0_1.index t (1 : Fin 2) * 64 + 1 * (j 1).val = win0_5.index t (1 : Fin 2) * 64 + 1 * (j 1).val; omega
  have h2 : ((cfg0.win 2).blk t).view.emb j = ((cfg0.win 5).blk t).view.emb j := by
    funext a; apply Fin.ext
    match a with
    | ⟨0, _⟩ => show win0_2.index t (0 : Fin 2) * 4096 + 1 * (j 0).val = win0_5.index t (0 : Fin 2) * 4096 + 1 * (j 0).val; omega
    | ⟨1, _⟩ => show win0_2.index t (1 : Fin 2) * 64 + 1 * (j 1).val = win0_5.index t (1 : Fin 2) * 64 + 1 * (j 1).val; omega
  have h3 : ((cfg0.win 3).blk t).view.emb j = ((cfg0.win 5).blk t).view.emb j := by
    funext a; apply Fin.ext
    match a with
    | ⟨0, _⟩ => show win0_3.index t (0 : Fin 2) * 4096 + 1 * (j 0).val = win0_5.index t (0 : Fin 2) * 4096 + 1 * (j 0).val; omega
    | ⟨1, _⟩ => show win0_3.index t (1 : Fin 2) * 64 + 1 * (j 1).val = win0_5.index t (1 : Fin 2) * 64 + 1 * (j 1).val; omega
  -- the two weight entries of row `j 0` of the block are the weight array's entries of the output's row
  have h4a : ((cfg0.win 4).blk t).view.emb (r0_0.idx (rowOf j)) = wAt (((cfg0.win 5).blk t).view.emb j) 0 := by
    funext a; apply Fin.ext
    match a with
    | ⟨0, _⟩ => show win0_4.index t (0 : Fin 2) * 4096 + 1 * (0 + 1 * (j 0).val) = win0_5.index t (0 : Fin 2) * 4096 + 1 * (j 0).val; omega
    | ⟨1, _⟩ => show win0_4.index t (1 : Fin 2) * 2 + 1 * (0 + 1 * 0) = 0; omega
  have h4b : ((cfg0.win 4).blk t).view.emb (r0_1.idx (rowOf j)) = wAt (((cfg0.win 5).blk t).view.emb j) 1 := by
    funext a; apply Fin.ext
    match a with
    | ⟨0, _⟩ => show win0_4.index t (0 : Fin 2) * 4096 + 1 * (0 + 1 * (j 0).val) = win0_5.index t (0 : Fin 2) * 4096 + 1 * (j 0).val; omega
    | ⟨1, _⟩ => show win0_4.index t (1 : Fin 2) * 2 + 1 * (1 + 1 * 0) = 1; omega
  have a0 : iblk m c 0 t j = V m c main_v81 (((cfg0.win 5).blk t).view.emb j) := by
    unfold iblk
    rw [View.read_apply, h0]
    rfl
  have a1 : iblk m c 1 t j = V m c main_v82 (((cfg0.win 5).blk t).view.emb j) := by
    unfold iblk
    rw [View.read_apply, h1]
    rfl
  have a2 : iblk m c 2 t j = V m c main_v83 (((cfg0.win 5).blk t).view.emb j) := by
    unfold iblk
    rw [View.read_apply, h2]
    rfl
  have a3 : iblk m c 3 t j = V m c main_v84 (((cfg0.win 5).blk t).view.emb j) := by
    unfold iblk
    rw [View.read_apply, h3]
    rfl
  have a4 : View.ld (iblk m c 4 t) r0_0 (rowOf j) = V m c main_v85 (wAt (((cfg0.win 5).blk t).view.emb j) 0) := by
    unfold iblk
    show ((cfg0.win 4).blk t).view.read (Elt F) (V m c (Pipeline.arrRef spec0 4)) (r0_0.idx (rowOf j)) = _
    rw [View.read_apply, h4a]
    rfl
  have a5 : View.ld (iblk m c 4 t) r0_1 (rowOf j) = V m c main_v85 (wAt (((cfg0.win 5).blk t).view.emb j) 1) := by
    unfold iblk
    show ((cfg0.win 4).blk t).view.read (Elt F) (V m c (Pipeline.arrRef spec0 4)) (r0_1.idx (rowOf j)) = _
    rw [View.read_apply, h4b]
    rfl
  rw [a0, a1, a2, a3, a4, a5]

/-- An index of the flat output is in point `t`'s block iff each coordinate is in the block's range on its axis. -/
theorem mem_blk5 (t : Fin cfg0.N) (i : S524288x64.Idx) :
    i ∈ ((cfg0.win 5).blk t).view.set ↔ ∀ a : Fin 2, win0_5.index t a * S4096x64.size a ≤ (i a).val ∧ (i a).val < win0_5.index t a * S4096x64.size a + S4096x64.size a := by
  show i ∈ ((View.whole main_v86).slice (win0_5.rect t)).set ↔ _
  rw [View.set_slice_whole, Rect.mem_set_unit]
  exact Iff.rfl

/-- Row `r` of the flat output lies in the block of point `r / 4096`: the 128 blocks tile the array. -/
theorem cover5 (i : S524288x64.Idx) :
    ∃ t : Fin cfg0.N, (cfg0.win 5).flush t = true ∧ i ∈ ((cfg0.win 5).blk t).view.set := by
  have hi0 : (i 0).val < 524288 := (i 0).isLt
  have hi1 : (i 1).val < 64 := (i 1).isLt
  have ht : (i 0).val / 4096 < cfg0.N := by show (i 0).val / 4096 < grid0.N; rw [N_0]; omega
  obtain ⟨-, -, -, -, -, -, -, -, -, -, e50, e51⟩ := idx_facts ⟨(i 0).val / 4096, ht⟩
  have e50' : win0_5.index ⟨(i 0).val / 4096, ht⟩ (0 : Fin 2) = (i 0).val / 4096 := e50
  refine ⟨⟨(i 0).val / 4096, ht⟩, flush0_5 _, ?_⟩
  rw [mem_blk5]
  intro a
  match a with
  | ⟨0, _⟩ => show win0_5.index ⟨(i 0).val / 4096, ht⟩ (0 : Fin 2) * 4096 ≤ (i 0).val ∧ (i 0).val < win0_5.index ⟨(i 0).val / 4096, ht⟩ (0 : Fin 2) * 4096 + 4096; omega
  | ⟨1, _⟩ => show win0_5.index ⟨(i 0).val / 4096, ht⟩ (1 : Fin 2) * 64 ≤ (i 1).val ∧ (i 1).val < win0_5.index ⟨(i 0).val / 4096, ht⟩ (1 : Fin 2) * 64 + 64; omega

/-- The flat output array after the run. -/
theorem final5 (c : Dev nD) :
    (dats m 0 c).arrAt 5 cfg0.N
      = flatBlend (V m c main_v81) (V m c main_v82) (V m c main_v83) (V m c main_v84) (V m c main_v85) :=
  (dats m 0 c).arrAt_eq_of_cover 5 _ (fun t _ => flushed5_eq m c t) cover5

end Cert.KernelIdeal.Arr

end
-- ==== Proof.KernelResult.lean ====
/-
  From the flat output back to [8, 65536, 64]: the kernel's result at one element.

  Element `(b, q, ch)` of the result is element `(b * 65536 + q, ch)` of the flat output (the final reshape), whose
  corner operands there are the corners at `(b, q, ch)` (the reshapes before the region) and whose two weights are
  entries `(b, q, 0)` and `(b, q, 1)` of the stacked weight array, that is entry `(b, q, 0)` of the horizontal and of
  the vertical weight column.  All three are statements about row-major positions, checked by arithmetic.
-/
import proofs.«163394_j20942260535437_1_alg».proof.Proof.KernelArray
import Idealize.ShloMosaic.Lib.Pipeline.Value
import Idealize.ShloMosaic.Lib.ValueIdx

noncomputable section

namespace Cert.KernelIdeal.Result

open Cert.KernelIdeal Cert.KernelIdeal.Arr Idealize.ShloMosaic Idealize.ShloMosaic.ValueIdx

variable {F : FTy → Type} [FloatOps F]

/-- Where `(b, q, ch)` sits in the flat arrays: row `b * 65536 + q`, channel `ch`. -/
abbrev flatIdx (i : S8x65536x64.Idx) : S524288x64.Idx :=
  ix2 (⟨(i 0).val * 65536 + (i 1).val, by
    have h0 : (i 0).val < 8 := (i 0).isLt
    have h1 : (i 1).val < 65536 := (i 1).isLt
    omega⟩ : Fin 524288) (i 2)

/-- The entry of a [8, 65536, 1] weight column that belongs to batch `b` and query `q` of `(b, q, ch)`. -/
abbrev colIdx (i : S8x65536x64.Idx) : S8x65536x1.Idx := ix3 (i 0) (i 1) (0 : Fin 1)

/-- The final reshape, read at an element. -/
theorem unflatten_apply (X : S524288x64.Idx → Elt F .f32) (h : S524288x64.ShapeCasts S8x65536x64) (i : S8x65536x64.Idx) :
    shapeCast S8x65536x64 X h i = X (flatIdx i) :=
  shapeCast_apply X h i (flatIdx i) (by
    rewrite [Shape.rowMajor_val_two, Shape.rowMajor_val_three]
    show ((i 0).val * 65536 + (i 1).val) * 64 + (i 2).val = ((i 0).val * 65536 + (i 1).val) * 64 + (i 2).val
    rfl)

/-- A corner array flattened over batch and query, read at the flat position of an element. -/
theorem flatten_apply (T : S8x65536x64.Idx → Elt F .f32) (h : S8x65536x64.ShapeCasts S524288x64) (i : S8x65536x64.Idx) :
    shapeCast S524288x64 T h (flatIdx i) = T i :=
  shapeCast_apply T h (flatIdx i) i (by
    rewrite [Shape.rowMajor_val_three, Shape.rowMajor_val_two]
    show ((i 0).val * 65536 + (i 1).val) * 64 + (i 2).val = ((i 0).val * 65536 + (i 1).val) * 64 + (i 2).val
    rfl)

/-- The stacked weights flattened over batch and query, read at entry `k` of the flat row of an element. -/
theorem flatten_weights_apply (C : S8x65536x2.Idx → Elt F .f32) (h : S8x65536x2.ShapeCasts S524288x2) (i : S8x65536x64.Idx) (k : Fin 2) :
    shapeCast S524288x2 C h (wAt (flatIdx i) k) = C (ix3 (i 0) (i 1) k) :=
  shapeCast_apply C h (wAt (flatIdx i) k) (ix3 (i 0) (i 1) k) (by
    rewrite [Shape.rowMajor_val_three, Shape.rowMajor_val_two]
    show ((i 0).val * 65536 + (i 1).val) * 2 + k.val = ((i 0).val * 65536 + (i 1).val) * 2 + k.val
    rfl)

/-- Entry 0 along the joined axis of the two stacked columns is the first column's entry. -/
theorem stacked_apply0 (AX AY : S8x65536x1.Idx → Elt F .f32) (h : Shape.Concatenates [S8x65536x1, S8x65536x1] S8x65536x2 2)
    (i : S8x65536x64.Idx) :
    concatenate S8x65536x2 2 [⟨S8x65536x1, AX⟩, ⟨S8x65536x1, AY⟩] h (ix3 (i 0) (i 1) (0 : Fin 2)) = AX (colIdx i) :=
  concatenate_apply_piece (t := S8x65536x2) 2 [⟨S8x65536x1, AX⟩, ⟨S8x65536x1, AY⟩] h (ix3 (i 0) (i 1) (0 : Fin 2))
    0 (Nat.zero_lt_succ _) S8x65536x1 AX rfl rfl 0 rfl (colIdx i)
    (fun b hb => match b with
      | ⟨0, _⟩ => rfl
      | ⟨1, _⟩ => rfl
      | ⟨2, _⟩ => absurd rfl hb) rfl

/-- Entry 1 along the joined axis is the second column's entry. -/
theorem stacked_apply1 (AX AY : S8x65536x1.Idx → Elt F .f32) (h : Shape.Concatenates [S8x65536x1, S8x65536x1] S8x65536x2 2)
    (i : S8x65536x64.Idx) :
    concatenate S8x65536x2 2 [⟨S8x65536x1, AX⟩, ⟨S8x65536x1, AY⟩] h (ix3 (i 0) (i 1) (1 : Fin 2)) = AY (colIdx i) :=
  concatenate_apply_piece (t := S8x65536x2) 2 [⟨S8x65536x1, AX⟩, ⟨S8x65536x1, AY⟩] h (ix3 (i 0) (i 1) (1 : Fin 2))
    1 (Nat.succ_lt_succ (Nat.zero_lt_succ _)) S8x65536x1 AY rfl rfl 1 rfl (colIdx i)
    (fun b hb => match b with
      | ⟨0, _⟩ => rfl
      | ⟨1, _⟩ => rfl
      | ⟨2, _⟩ => absurd rfl hb) rfl

/-- THE KERNEL'S RESULT AT AN ELEMENT, for any four corner arrays and two weight columns put through the program's
    layout operations: the blend of the corners at the element with the weight columns' entries of its batch and query. -/
theorem result_apply (TL TR BL BR : S8x65536x64.Idx → Elt F .f32) (AX AY : S8x65536x1.Idx → Elt F .f32)
    (h1 : S8x65536x64.ShapeCasts S524288x64) (h2 : S8x65536x2.ShapeCasts S524288x2) (h3 : S524288x64.ShapeCasts S8x65536x64)
    (hc : Shape.Concatenates [S8x65536x1, S8x65536x1] S8x65536x2 2) (i : S8x65536x64.Idx) :
    shapeCast S8x65536x64 (flatBlend (shapeCast S524288x64 TL h1) (shapeCast S524288x64 TR h1) (shapeCast S524288x64 BL h1)
        (shapeCast S524288x64 BR h1) (shapeCast S524288x2 (concatenate S8x65536x2 2 [⟨S8x65536x1, AX⟩, ⟨S8x65536x1, AY⟩] hc) h2)) h3 i
      = Cert.Blend.blend (TL i) (TR i) (BL i) (BR i) (AX (colIdx i)) (AY (colIdx i)) := by
  rw [unflatten_apply]
  show Cert.Blend.blend (shapeCast S524288x64 TL h1 (flatIdx i)) (shapeCast S524288x64 TR h1 (flatIdx i))
      (shapeCast S524288x64 BL h1 (flatIdx i)) (shapeCast S524288x64 BR h1 (flatIdx i))
      (shapeCast S524288x2 (concatenate S8x65536x2 2 [⟨S8x65536x1, AX⟩, ⟨S8x65536x1, AY⟩] hc) h2 (wAt (flatIdx i) 0))
      (shapeCast S524288x2 (concatenate S8x65536x2 2 [⟨S8x65536x1, AX⟩, ⟨S8x65536x1, AY⟩] hc) h2 (wAt (flatIdx i) 1)) = _
  rw [flatten_apply, flatten_apply, flatten_apply, flatten_apply, flatten_weights_apply, flatten_weights_apply,
    stacked_apply0, stacked_apply1]

end Cert.KernelIdeal.Result

end
-- ==== Proof.HostPrefix.lean ====
/-
  The five arrays the region reads, as the host operations before it leave them.

  Before the region @main computes, from the query points, the clamped floor coordinates and the two weights, gathers the
  four corner arrays [8, 65536, 64] from the grid, stacks the two weights into [8, 65536, 2], and flattens batch and query
  into one row axis.  Up to that flattening (and the stacking of the weights) these are, operation for operation and
  literal for literal, the stages the reference computes: the same slices, floors, clamps, integer conversions, index
  wrap-arounds and gathers.  Each array is therefore stated directly over the reference's stages, and the two sides are
  one term.
-/
import proofs.«163394_j20942260535437_1_alg».proof.Proof.Gen.KernelIdeal.Frame
import proofs.«163394_j20942260535437_1_alg».proof.Proof.Gen.ReferenceIdeal.Read
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The region's top-left array: the reference's gathered corner `%29`, flattened over batch and query. -/
theorem V_v81 (c : Dev nD) :
    (V m c main_v81 : S524288x64.Idx → Elt F .f32)
      = shapeCast S524288x64 (Cert.ReferenceIdeal.Read.val_main_v29 (F := F) (m ((c : Thread nD τ).loc main_arg0)) (m ((c : Thread nD τ).loc main_arg1))) shapeCasts_S8x65536x64_S524288x64 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- The region's top-right array: the reference's gathered corner `%45`, flattened over batch and query. -/
theorem V_v82 (c : Dev nD) :
    (V m c main_v82 : S524288x64.Idx → Elt F .f32)
      = shapeCast S524288x64 (Cert.ReferenceIdeal.Read.val_main_v45 (F := F) (m ((c : Thread nD τ).loc main_arg0)) (m ((c : Thread nD τ).loc main_arg1))) shapeCasts_S8x65536x64_S524288x64 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- The region's bottom-left array: the reference's gathered corner `%61`, flattened over batch and query. -/
theorem V_v83 (c : Dev nD) :
    (V m c main_v83 : S524288x64.Idx → Elt F .f32)
      = shapeCast S524288x64 (Cert.ReferenceIdeal.Read.val_main_v61 (F := F) (m ((c : Thread nD τ).loc main_arg0)) (m ((c : Thread nD τ).loc main_arg1))) shapeCasts_S8x65536x64_S524288x64 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- The region's bottom-right array: the reference's gathered corner `%79`, flattened over batch and query. -/
theorem V_v84 (c : Dev nD) :
    (V m c main_v84 : S524288x64.Idx → Elt F .f32)
      = shapeCast S524288x64 (Cert.ReferenceIdeal.Read.val_main_v79 (F := F) (m ((c : Thread nD τ).loc main_arg0)) (m ((c : Thread nD τ).loc main_arg1))) shapeCasts_S8x65536x64_S524288x64 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 4000000 in
/-- The region's weight array: the reference's two weight columns (horizontal first, vertical second) joined along the
    last axis, flattened over batch and query. -/
theorem V_v85 (c : Dev nD) :
    (V m c main_v85 : S524288x2.Idx → Elt F .f32)
      = shapeCast S524288x2 (concatenate S8x65536x2 2
          [⟨S8x65536x1, Cert.ReferenceIdeal.Read.val_main_v13 (F := F) (m ((c : Thread nD τ).loc main_arg1))⟩, ⟨S8x65536x1, Cert.ReferenceIdeal.Read.val_main_v10 (F := F) (m ((c : Thread nD τ).loc main_arg1))⟩]
          concatenates_S8x65536x1_S8x65536x1_S8x65536x2_d2) shapeCasts_S8x65536x2_S524288x2 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

end Cert.KernelIdeal.Host

end
-- ==== Proof.RefBlend.lean ====
/-
  The reference's result at one element.

  The reference gathers the four corner arrays [8, 65536, 64], keeps the two weights as [8, 65536, 1] columns, broadcasts
  each along the 64 channels and blends on the whole arrays.  Read at `(b, q, ch)` its result is the blend of the four
  corners at `(b, q, ch)` with the two weights at `(b, q, 0)`.
-/
import proofs.«163394_j20942260535437_1_alg».proof.Proof.Gen.ReferenceIdeal.Read
import proofs.«163394_j20942260535437_1_alg».proof.Proof.Blend

noncomputable section

namespace Cert.ReferenceIdeal.RefValue

open Cert.ReferenceIdeal Cert.ReferenceIdeal.Read Idealize.ShloMosaic

variable {F : FTy → Type} [FloatOps F]

/-- The reference's last stage at an index: the blend of the gathered corners there with the weight columns' entries
    of that batch and query. -/
theorem result_apply (x0 : (⟨S8x256x256x64, .f32⟩ : BufTy).Contents (Elt F)) (x1 : (⟨S8x65536x2, .f32⟩ : BufTy).Contents (Elt F))
    (i : S8x65536x64.Idx) :
    val_main_v91 (F := F) x0 x1 i
      = Cert.Blend.blend (val_main_v29 (F := F) x0 x1 i) (val_main_v45 (F := F) x0 x1 i) (val_main_v61 (F := F) x0 x1 i)
          (val_main_v79 (F := F) x0 x1 i) (val_main_v13 (F := F) x1 (idx_main_v81 i)) (val_main_v10 (F := F) x1 (idx_main_v89 i)) := by
  rw [val_main_v91_apply, val_main_v90_apply, val_main_v88_apply, val_main_v87_apply, val_main_v86_apply,
    val_main_v84_apply, val_main_v83_apply, val_main_v82_apply, val_main_v80_apply, val_main_v81_apply,
    val_main_v85_apply, val_main_v89_apply]
  rfl

end Cert.ReferenceIdeal.RefValue

end
-- ==== Proof.KernelRun.lean ====
/-
  The kernel program's run, read: its result array is the reference's last stage of the same two arguments.

  After the region the one remaining host operation reshapes the flat output to [8, 65536, 64].  With the flat output as
  the row-by-row blend of the five arrays the region reads (KernelArray), those arrays as the reference's stages put
  through the program's layout operations (HostPrefix), and the layout operations undone at an element (KernelResult),
  element `(b, q, ch)` of the result is the blend of the reference's four gathered corners at `(b, q, ch)` with its two
  weight columns at `(b, q, 0)` — which is what the reference's last stage is there (RefBlend).  This holds at every
  float instance: the two programs apply one tree of operations to the same operands.
-/
import proofs.«163394_j20942260535437_1_alg».proof.Proof.KernelArray
import proofs.«163394_j20942260535437_1_alg».proof.Proof.KernelResult
import proofs.«163394_j20942260535437_1_alg».proof.Proof.HostPrefix
import proofs.«163394_j20942260535437_1_alg».proof.Proof.RefBlend
import Idealize.ShloMosaic.Lib.StableHlo.Run

set_option maxRecDepth 16384

noncomputable section

namespace Cert.KernelIdeal.RunValue

open Cert.KernelIdeal Cert.KernelIdeal.Gen Cert.KernelIdeal.Arr Cert.KernelIdeal.Host Cert.KernelIdeal.Result
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The result buffer after the host operation that follows the region: the flat output, reshaped. -/
theorem tail_result (c : Dev nD) :
    (Pipeline.afterTail₀ cfgs (dats m) 0 (V0 m) [hostOps1] c main_v87 : S8x65536x64.Idx → Elt F .f32)
      = shapeCast S8x65536x64 (flatBlend (V m c main_v81) (V m c main_v82) (V m c main_v83) (V m c main_v84) (V m c main_v85))
          shapeCasts_S524288x64_S8x65536x64 := by
  unfold Pipeline.afterTail₀
  show StableHlo.after hostOps1 _ (Proc.devRef .tc main_v87) = _
  after_results
  have hw : Pipeline.withArrays (cfgs 0).spec c (V0 m c) (fun w => (dats m 0 c).arrAt w (cfgs 0).N) (Proc.devRef .tc main_v86)
      = flatBlend (V m c main_v81) (V m c main_v82) (V m c main_v83) (V m c main_v84) (V m c main_v85) :=
    (Pipeline.withArrays_arr spec0 launch0.win.arr_inj c _ _ 5).trans (final5 m c)
  rw [hw]
  rfl

/-- The weight-column entry the reference's broadcasts read at an element is the one of the element's batch and query. -/
theorem refcol_eq (i : S8x65536x64.Idx) : Cert.ReferenceIdeal.Read.idx_main_v81 i = colIdx i :=
  funext fun a => match a with
    | ⟨0, _⟩ => rfl
    | ⟨1, _⟩ => rfl
    | ⟨2, _⟩ => rfl

/-- THE RESULT: the reference's last stage of the two argument arrays. -/
theorem result_eq (c : Dev nD) :
    (Pipeline.afterTail₀ cfgs (dats m) 0 (V0 m) [hostOps1] c main_v87 : S8x65536x64.Idx → Elt F .f32)
      = Cert.ReferenceIdeal.Read.val_main_v91 (F := F) (m ((c : Thread nD τ).loc main_arg0)) (m ((c : Thread nD τ).loc main_arg1)) := by
  refine (tail_result m c).trans ?_
  rw [V_v81 m c, V_v82 m c, V_v83 m c, V_v84 m c, V_v85 m c]
  funext i
  rw [result_apply, Cert.ReferenceIdeal.RefValue.result_apply]
  show Cert.Blend.blend _ _ _ _ _ _ = Cert.Blend.blend _ _ _ _
    (Cert.ReferenceIdeal.Read.val_main_v13 (F := F) (m ((c : Thread nD τ).loc main_arg1)) (Cert.ReferenceIdeal.Read.idx_main_v81 i))
    (Cert.ReferenceIdeal.Read.val_main_v10 (F := F) (m ((c : Thread nD τ).loc main_arg1)) (Cert.ReferenceIdeal.Read.idx_main_v81 i))
  rw [refcol_eq i]

/-- The kernel program's run with its result named: every weakly fair execution terminates with the result buffer at
    the reference's last stage of the arguments, and the arguments unchanged. -/
theorem run : θ_run defs (onTc (τ := τ) (main (F := F))) ⟨m, fun _ => 0, ρ⟩ fun r => ∀ c : Dev nD,
      r.2.mem ((c.tc : Thread nD τ).loc main_v87)
        = Cert.ReferenceIdeal.Read.val_main_v91 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v87 (Pipeline.mem_restRefs_of main_v87 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.lean ====
/-
  Bilinear sampling of a feature grid at query points: the kernel program against its reference.

  Both programs take a grid [8, 256, 256, 64] and query points [8, 65536, 2].  Both compute, with the same host
  operations, the clamped floor of each query coordinate, the two fractional weights clamped to [0, 1], and gather the
  four corner samples top-left, top-right, bottom-left, bottom-right, each [8, 65536, 64].  Both then form, per element,
      top = tl + (tr - tl) * ax,   bottom = bl + (br - bl) * ax,   out = top + (bottom - top) * ay.
  The reference does this on the whole arrays with the weights broadcast from [8, 65536, 1] columns.  The kernel program
  flattens batch and query into one axis of 524288 rows, stacks the two weights into a [524288, 2] array, runs a region
  over 128 blocks of 4096 rows whose body blends one block, and reshapes the flat output back.

  The equivalence needs no arithmetic: at element `(b, q, ch)` the two programs apply one tree of operations to the same
  six operands, so the results agree at every float instance and in particular over the extended reals, whatever the
  inputs (the finiteness precondition is never opened).  What is proved is the bookkeeping: block `t`, row `r` of each
  window is row `t * 4096 + r` of its array, the blocks tile the output, and the reshapes and the stacking are undone
  at an element by row-major arithmetic (Proof/KernelBody, KernelArray, HostPrefix, KernelResult, RefBlend, KernelRun).

  The three frames: the two kernel programs' by their class-A frame runs, the reference's by its run with the result
  dropped.  The idealization rewrote nothing, so `preserves` has no conjunct.
-/
import proofs.«163394_j20942260535437_1_alg».proof.Defs
import proofs.«163394_j20942260535437_1_alg».proof.Proof.Gen.Kernel
import proofs.«163394_j20942260535437_1_alg».proof.Proof.Gen.Kernel.Skeleton
import proofs.«163394_j20942260535437_1_alg».proof.Proof.Gen.Kernel.Launch
import proofs.«163394_j20942260535437_1_alg».proof.Proof.Gen.Kernel.Points
import proofs.«163394_j20942260535437_1_alg».proof.Proof.Gen.Kernel.Frame
import proofs.«163394_j20942260535437_1_alg».proof.Proof.Gen.KernelIdeal
import proofs.«163394_j20942260535437_1_alg».proof.Proof.Gen.KernelIdeal.Skeleton
import proofs.«163394_j20942260535437_1_alg».proof.Proof.Gen.KernelIdeal.Launch
import proofs.«163394_j20942260535437_1_alg».proof.Proof.Gen.KernelIdeal.Points
import proofs.«163394_j20942260535437_1_alg».proof.Proof.Gen.KernelIdeal.Frame
import proofs.«163394_j20942260535437_1_alg».proof.Proof.Gen.ReferenceIdeal
import proofs.«163394_j20942260535437_1_alg».proof.Proof.Gen.Pre_finite_inputs
import proofs.«163394_j20942260535437_1_alg».proof.Proof.Gen.ReferenceIdeal.Run
import proofs.«163394_j20942260535437_1_alg».proof.Proof.Gen.ReferenceIdeal.Read
import proofs.«163394_j20942260535437_1_alg».proof.Proof.KernelRun
import Idealize.ShloMosaic.Adequacy
import Idealize.ShloMosaic.Init

noncomputable section

namespace Cert.Proof

open Idealize.ShloMosaic Idealize.SL.Sem

/-- The word-level kernel program runs and keeps its arguments: its class-A frame run. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the grid and the query points, both programs end with the
    reference's last stage of those two arrays in their result buffers. -/
theorem algebraic : Cert.algebraic_KernelIdeal_ReferenceIdeal := by
  intro m ρ m' ρ' _ hagree
  refine ⟨fun c => Cert.ReferenceIdeal.Read.val_main_v91 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
